-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_

variable [Facts]

def fn_part1 {F : FTy → Type} [FloatOps F] (main_arg2 : IVec S800000 32) (main_v15 : IVec S_ 1) : IVec S_ 1 :=
  let main_c_6 : IVec S_ 32 := constantI S_ 32 50000#32
  let main_v16 : IVec S800000 32 := broadcastInDim S800000 ![] bcast_S_S800000 main_c_6
  let main_v17 : IVec S800000 1 := cmpi .slt main_arg2 main_v16
  let main_c_7 : IVec S_ 1 := constantI S_ 1 1#1
  let main_v18 : IVec S_ 1 := (fun x v => Host.reduce IntOp.andi x v reducesTo_S800000_S_d0 h_S_) main_v17 main_c_7
  let main_v19 : IVec S_ 1 := andi main_v15 main_v18
  main_v19

def fn {F : FTy → Type} [FloatOps F] (main_arg0 : FVec F S50000x64 .f32) (main_arg1 : IVec S800000 32) (main_arg2 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_c_0 : IVec S_ 32 := constantI S_ 32 0#32
  let main_v4 : IVec S800000 32 := broadcastInDim S800000 ![] bcast_S_S800000 main_c_0
  let main_v5 : IVec S800000 1 := cmpi .sge main_arg1 main_v4
  let main_c_1 : IVec S_ 1 := constantI S_ 1 1#1
  let main_v6 : IVec S_ 1 := (fun x v => Host.reduce IntOp.andi x v reducesTo_S800000_S_d0 h_S_) main_v5 main_c_1
  let main_v7 : IVec S_ 1 := andi main_v3 main_v6
  let main_c_2 : IVec S_ 32 := constantI S_ 32 50000#32
  let main_v8 : IVec S800000 32 := broadcastInDim S800000 ![] bcast_S_S800000 main_c_2
  let main_v9 : IVec S800000 1 := cmpi .slt main_arg1 main_v8
  let main_c_3 : IVec S_ 1 := constantI S_ 1 1#1
  let main_v10 : IVec S_ 1 := (fun x v => Host.reduce IntOp.andi x v reducesTo_S800000_S_d0 h_S_) main_v9 main_c_3
  let main_v11 : IVec S_ 1 := andi main_v7 main_v10
  let main_c_4 : IVec S_ 32 := constantI S_ 32 0#32
  let main_v12 : IVec S800000 32 := broadcastInDim S800000 ![] bcast_S_S800000 main_c_4
  let main_v13 : IVec S800000 1 := cmpi .sge main_arg2 main_v12
  let main_c_5 : IVec S_ 1 := constantI S_ 1 1#1
  let main_v14 : IVec S_ 1 := (fun x v => Host.reduce IntOp.andi x v reducesTo_S800000_S_d0 h_S_) main_v13 main_c_5
  let main_v15 : IVec S_ 1 := andi main_v11 main_v14
  fn_part1 (F := F) main_arg2 main_v15
-- ==== Kernel.lean ====
abbrev S50000x64 : Shape := ⟨2, ![50000, 64]⟩
abbrev S800000 : Shape := ⟨1, ![800000]⟩
abbrev S_ : Shape := ⟨0, ![]⟩
abbrev S802816 : Shape := ⟨1, ![802816]⟩
abbrev S802816x1 : Shape := ⟨2, ![802816, 1]⟩
abbrev S1 : Shape := ⟨1, ![1]⟩
abbrev S1x1 : Shape := ⟨2, ![1, 1]⟩
abbrev S802816x64 : Shape := ⟨2, ![802816, 64]⟩
abbrev S8192x64 : Shape := ⟨2, ![8192, 64]⟩
abbrev S8192 : Shape := ⟨1, ![8192]⟩

abbrev nBuf : Space → Nat
  | .hbm => 73
  | .vmem => 6
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S_, .i32⟩
  | .hbm, ⟨20, _⟩ => ⟨S_, .i32⟩
  | .hbm, ⟨21, _⟩ => ⟨S802816, .i32⟩
  | .hbm, ⟨22, _⟩ => ⟨S_, .i32⟩
  | .hbm, ⟨23, _⟩ => ⟨S_, .i32⟩
  | .hbm, ⟨24, _⟩ => ⟨S802816, .i32⟩
  | .hbm, ⟨25, _⟩ => ⟨S_, .i32⟩
  | .hbm, ⟨26, _⟩ => ⟨S802816, .i32⟩
  | .hbm, ⟨27, _⟩ => ⟨S802816, .i1⟩
  | .hbm, ⟨28, _⟩ => ⟨S_, .i32⟩
  | .hbm, ⟨29, _⟩ => ⟨S802816, .i32⟩
  | .hbm, ⟨30, _⟩ => ⟨S802816, .i32⟩
  | .hbm, ⟨31, _⟩ => ⟨S802816, .i32⟩
  | .hbm, ⟨32, _⟩ => ⟨S802816x1, .i32⟩
  | .hbm, ⟨33, _⟩ => ⟨S1, .i32⟩
  | .hbm, ⟨34, _⟩ => ⟨S_, .i32⟩
  | .hbm, ⟨35, _⟩ => ⟨S802816x1, .i32⟩
  | .hbm, ⟨36, _⟩ => ⟨S802816x1, .i1⟩
  | .hbm, ⟨37, _⟩ => ⟨S1x1, .i32⟩
  | .hbm, ⟨38, _⟩ => ⟨S802816x1, .i32⟩
  | .hbm, ⟨39, _⟩ => ⟨S802816x1, .i1⟩
  | .hbm, ⟨40, _⟩ => ⟨S802816x1, .i1⟩
  | .hbm, ⟨41, _⟩ => ⟨S_, .i1⟩
  | .hbm, ⟨42, _⟩ => ⟨S802816, .i1⟩
  | .hbm, ⟨43, _⟩ => ⟨S802816x64, .f32⟩
  | .hbm, ⟨44, _⟩ => ⟨S802816x64, .i1⟩
  | .hbm, ⟨45, _⟩ => ⟨S_, .f32⟩
  | .hbm, ⟨46, _⟩ => ⟨S802816x64, .f32⟩
  | .hbm, ⟨47, _⟩ => ⟨S802816x64, .f32⟩
  | .hbm, ⟨48, _⟩ => ⟨S_, .i32⟩
  | .hbm, ⟨49, _⟩ => ⟨S802816, .i32⟩
  | .hbm, ⟨50, _⟩ => ⟨S802816, .i1⟩
  | .hbm, ⟨51, _⟩ => ⟨S_, .i32⟩
  | .hbm, ⟨52, _⟩ => ⟨S802816, .i32⟩
  | .hbm, ⟨53, _⟩ => ⟨S802816, .i32⟩
  | .hbm, ⟨54, _⟩ => ⟨S802816, .i32⟩
  | .hbm, ⟨55, _⟩ => ⟨S802816x1, .i32⟩
  | .hbm, ⟨56, _⟩ => ⟨S1, .i32⟩
  | .hbm, ⟨57, _⟩ => ⟨S_, .i32⟩
  | .hbm, ⟨58, _⟩ => ⟨S802816x1, .i32⟩
  | .hbm, ⟨59, _⟩ => ⟨S802816x1, .i1⟩
  | .hbm, ⟨60, _⟩ => ⟨S1x1, .i32⟩
  | .hbm, ⟨61, _⟩ => ⟨S802816x1, .i32⟩
  | .hbm, ⟨62, _⟩ => ⟨S802816x1, .i1⟩
  | .hbm, ⟨63, _⟩ => ⟨S802816x1, .i1⟩
  | .hbm, ⟨64, _⟩ => ⟨S_, .i1⟩
  | .hbm, ⟨65, _⟩ => ⟨S802816, .i1⟩
  | .hbm, ⟨66, _⟩ => ⟨S802816x64, .f32⟩
  | .hbm, ⟨67, _⟩ => ⟨S802816x64, .i1⟩
  | .hbm, ⟨68, _⟩ => ⟨S_, .f32⟩
  | .hbm, ⟨69, _⟩ => ⟨S802816x64, .f32⟩
  | .hbm, ⟨70, _⟩ => ⟨S802816x64, .f32⟩
  | .hbm, ⟨71, _⟩ => ⟨S802816, .f32⟩
  | .hbm, ⟨72, _⟩ => ⟨S800000, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S8192, .f32⟩
  | .local _ .vmem, ⟨5, _⟩ => ⟨S8192, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_c_1 : Ref sig .tc := ⟨.hbm, 11, rfl⟩
abbrev main_c_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v1 : Ref sig .tc := ⟨.hbm, 18, rfl⟩
abbrev main_c_3 : Ref sig .tc := ⟨.hbm, 19, rfl⟩
abbrev main_call2_v0 : Ref sig .tc := ⟨.hbm, 20, rfl⟩
abbrev main_v2 : Ref sig .tc := ⟨.hbm, 21, rfl⟩
abbrev main_c_4 : Ref sig .tc := ⟨.hbm, 22, rfl⟩
abbrev main_call3_v0 : Ref sig .tc := ⟨.hbm, 23, rfl⟩
abbrev main_v3 : Ref sig .tc := ⟨.hbm, 24, rfl⟩
abbrev main_call4_c : Ref sig .tc := ⟨.hbm, 25, rfl⟩
abbrev main_call4_v0 : Ref sig .tc := ⟨.hbm, 26, rfl⟩
abbrev main_call4_v1 : Ref sig .tc := ⟨.hbm, 27, rfl⟩
abbrev main_call4_c_0 : Ref sig .tc := ⟨.hbm, 28, rfl⟩
abbrev main_call4_v2 : Ref sig .tc := ⟨.hbm, 29, rfl⟩
abbrev main_call4_v3 : Ref sig .tc := ⟨.hbm, 30, rfl⟩
abbrev main_call4_v4 : Ref sig .tc := ⟨.hbm, 31, rfl⟩
abbrev main_call4_v5 : Ref sig .tc := ⟨.hbm, 32, rfl⟩
abbrev main_call4_c_1 : Ref sig .tc := ⟨.hbm, 33, rfl⟩
abbrev main_call4_c_2 : Ref sig .tc := ⟨.hbm, 34, rfl⟩
abbrev main_call4_v6 : Ref sig .tc := ⟨.hbm, 35, rfl⟩
abbrev main_call4_v7 : Ref sig .tc := ⟨.hbm, 36, rfl⟩
abbrev main_call4_v8 : Ref sig .tc := ⟨.hbm, 37, rfl⟩
abbrev main_call4_v9 : Ref sig .tc := ⟨.hbm, 38, rfl⟩
abbrev main_call4_v10 : Ref sig .tc := ⟨.hbm, 39, rfl⟩
abbrev main_call4_v11 : Ref sig .tc := ⟨.hbm, 40, rfl⟩
abbrev main_call4_c_3 : Ref sig .tc := ⟨.hbm, 41, rfl⟩
abbrev main_call4_v12 : Ref sig .tc := ⟨.hbm, 42, rfl⟩
abbrev main_call4_v13 : Ref sig .tc := ⟨.hbm, 43, rfl⟩
abbrev main_call4_v14 : Ref sig .tc := ⟨.hbm, 44, rfl⟩
abbrev main_call4_cst : Ref sig .tc := ⟨.hbm, 45, rfl⟩
abbrev main_call4_v15 : Ref sig .tc := ⟨.hbm, 46, rfl⟩
abbrev main_v4 : Ref sig .tc := ⟨.hbm, 47, rfl⟩
abbrev main_call5_c : Ref sig .tc := ⟨.hbm, 48, rfl⟩
abbrev main_call5_v0 : Ref sig .tc := ⟨.hbm, 49, rfl⟩
abbrev main_call5_v1 : Ref sig .tc := ⟨.hbm, 50, rfl⟩
abbrev main_call5_c_0 : Ref sig .tc := ⟨.hbm, 51, rfl⟩
abbrev main_call5_v2 : Ref sig .tc := ⟨.hbm, 52, rfl⟩
abbrev main_call5_v3 : Ref sig .tc := ⟨.hbm, 53, rfl⟩
abbrev main_call5_v4 : Ref sig .tc := ⟨.hbm, 54, rfl⟩
abbrev main_call5_v5 : Ref sig .tc := ⟨.hbm, 55, rfl⟩
abbrev main_call5_c_1 : Ref sig .tc := ⟨.hbm, 56, rfl⟩
abbrev main_call5_c_2 : Ref sig .tc := ⟨.hbm, 57, rfl⟩
abbrev main_call5_v6 : Ref sig .tc := ⟨.hbm, 58, rfl⟩
abbrev main_call5_v7 : Ref sig .tc := ⟨.hbm, 59, rfl⟩
abbrev main_call5_v8 : Ref sig .tc := ⟨.hbm, 60, rfl⟩
abbrev main_call5_v9 : Ref sig .tc := ⟨.hbm, 61, rfl⟩
abbrev main_call5_v10 : Ref sig .tc := ⟨.hbm, 62, rfl⟩
abbrev main_call5_v11 : Ref sig .tc := ⟨.hbm, 63, rfl⟩
abbrev main_call5_c_3 : Ref sig .tc := ⟨.hbm, 64, rfl⟩
abbrev main_call5_v12 : Ref sig .tc := ⟨.hbm, 65, rfl⟩
abbrev main_call5_v13 : Ref sig .tc := ⟨.hbm, 66, rfl⟩
abbrev main_call5_v14 : Ref sig .tc := ⟨.hbm, 67, rfl⟩
abbrev main_call5_cst : Ref sig .tc := ⟨.hbm, 68, rfl⟩
abbrev main_call5_v15 : Ref sig .tc := ⟨.hbm, 69, rfl⟩
abbrev main_v5 : Ref sig .tc := ⟨.hbm, 70, rfl⟩
abbrev main_v6 : Ref sig .tc := ⟨.hbm, 71, rfl⟩
abbrev main_v7 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S800000 : S_.BroadcastsInDim S800000 (![] : Fin 0 → Fin S800000.rank)
  pads_S800000_S802816_028160 : S800000.Pads (![0] : Fin 1 → Nat) ![2816] ![0] S802816
  h_S_ : 0 < S_.numel
  bcast_S_S802816 : S_.BroadcastsInDim S802816 (![] : Fin 0 → Fin S802816.rank)
  bcast_S802816_S802816x1_0 : S802816.BroadcastsInDim S802816x1 (![0] : Fin 1 → Fin S802816x1.rank)
  bcast_S_S802816x1 : S_.BroadcastsInDim S802816x1 (![] : Fin 0 → Fin S802816x1.rank)
  bcast_S1_S1x1_1 : S1.BroadcastsInDim S1x1 (![1] : Fin 1 → Fin S1x1.rank)
  bcast_S1x1_S802816x1_0_1 : S1x1.BroadcastsInDim S802816x1 (![0, 1] : Fin 2 → Fin S802816x1.rank)
  reducesTo_S802816x1_S802816_d1 : S802816x1.ReducesTo [1] S802816
  bcast_S802816_S802816x64_0 : S802816.BroadcastsInDim S802816x64 (![0] : Fin 1 → Fin S802816x64.rank)
  bcast_S_S802816x64 : S_.BroadcastsInDim S802816x64 (![] : Fin 0 → Fin S802816x64.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S8192x64_S8192 : S8192x64.Reduces [1] S8192
  inb_S8192_S8192_0 : ∀ a, (![0] : Fin 1 → Nat) a + S8192.size a ≤ S8192.size a
  h_S8192 : 0 < S8192.numel
  slices_S802816_S800000_0 : S802816.Slices ![0] S800000
  gather_S50000x64_S802816x1_S802816x64_1_0_n_n_0_1_164_wf : GatherDims.WF S50000x64 S802816x1 S802816x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S802816x64.size a
  hwx0_0 : ∀ i : grid0.Coords, EltTy.bits .f32 = 32 ∨ (Rect.block (s := S802816x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S802816x64.size a
  hwx0_1 : ∀ i : grid0.Coords, EltTy.bits .f32 = 32 ∨ (Rect.block (s := S802816x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S802816.size a
  hwx0_2 : ∀ i : grid0.Coords, EltTy.bits .f32 = 32 ∨ (Rect.block (s := S802816) S8192.size (cc0_transform_2 i) (hinb0_2 i)).WholeWords (EltTy.packing .f32)

variable [Facts₀]

def gather_S50000x64_S802816x1_S802816x64_1_0_n_n_0_1_164 : GatherDims S50000x64 S802816x1 S802816x64 where
  offsetDims := [1]
  collapsedSliceDims := [0]
  operandBatchingDims := []
  startIndicesBatchingDims := []
  startIndexMap := [0]
  indexVectorDim := 1
  sliceSizes := ![1, 64]
  wf := gather_S50000x64_S802816x1_S802816x64_1_0_n_n_0_1_164_wf

abbrev win0_0 : Pipeline.Window sig grid0 :=
  Pipeline.Window.ofSpec (Memref.whole main_v4) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000 : Shape := ⟨1, ![800000]⟩
abbrev S_ : Shape := ⟨0, ![]⟩
abbrev S800000x1 : Shape := ⟨2, ![800000, 1]⟩
abbrev S800000x64 : Shape := ⟨2, ![800000, 64]⟩

abbrev nBuf : Space → Nat
  | .hbm => 32
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S_, .i32⟩
  | .hbm, ⟨4, _⟩ => ⟨S800000, .i32⟩
  | .hbm, ⟨5, _⟩ => ⟨S800000, .i1⟩
  | .hbm, ⟨6, _⟩ => ⟨S_, .i32⟩
  | .hbm, ⟨7, _⟩ => ⟨S800000, .i32⟩
  | .hbm, ⟨8, _⟩ => ⟨S800000, .i32⟩
  | .hbm, ⟨9, _⟩ => ⟨S800000, .i32⟩
  | .hbm, ⟨10, _⟩ => ⟨S800000x1, .i32⟩
  | .hbm, ⟨11, _⟩ => ⟨S800000x64, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S800000x64, .f32⟩
  | .hbm, ⟨22, _⟩ => ⟨S_, .f32⟩
  | .hbm, ⟨23, _⟩ => ⟨S800000, .f32⟩
  | .hbm, ⟨24, _⟩ => ⟨S800000, .f32⟩
  | .hbm, ⟨25, _⟩ => ⟨S800000, .f32⟩
  | .hbm, ⟨26, _⟩ => ⟨S_, .f32⟩
  | .hbm, ⟨27, _⟩ => ⟨S800000, .f32⟩
  | .hbm, ⟨28, _⟩ => ⟨S800000, .f32⟩
  | .hbm, ⟨29, _⟩ => ⟨S_, .f32⟩
  | .hbm, ⟨30, _⟩ => ⟨S800000, .f32⟩
  | .hbm, ⟨31, _⟩ => ⟨S800000, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  reducesTo_S800000x64_S800000_d1 : S800000x64.ReducesTo [1] S800000
  h_S_ : 0 < S_.numel
  gather_S50000x64_S800000x1_S800000x64_1_0_n_n_0_1_164_wf : GatherDims.WF S50000x64 S800000x1 S800000x64 [1] [0] [] [0] [] 1 ![1, 64]

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

class Facts : Prop extends Facts₀ where

variable [Facts]
-- ==== Proof.Words.lean ====
/-
  Node indices as 32-bit words. An edge endpoint is a word `w`; it names a row of the embedding table when, read as a
  signed integer, it lies in [0, 50000). For such a word every index adjustment either program applies before its gather
  is the identity: clamping into [0, 49999], adding 50000 to a negative word, and the gather's own clamp of the start row;
  and the "is this index inside the table" test that guards the gathered row is true.
-/
import Idealize.ShloMosaic.Lib.Affine
import Idealize.ShloMosaic.Lib.ReduceAll
import Idealize.ShloMosaic.PureOps.Reduce

namespace Cert.EdgeScore

open Idealize.ShloMosaic

/-- The word, read signed, is a row number of the 50000-row table. -/
def IsNode (w : BitVec 32) : Prop := 0 ≤ w.toInt ∧ w.toInt < 50000

theorem toInt_zero32 : (0#32 : BitVec 32).toInt = 0 := by decide
theorem toInt_50000 : (50000#32 : BitVec 32).toInt = 50000 := by decide
theorem toInt_49999 : (49999#32 : BitVec 32).toInt = 49999 := by decide

/-- The two comparisons a range test prints, both true, say the word is a row number. -/
theorem isNode_of_cmp {w : BitVec 32} (h0 : IntOp.cmpi .sge w 0#32 = 1#1) (h1 : IntOp.cmpi .slt w 50000#32 = 1#1) : IsNode w := by
  rw [IntOp.cmpi_sge, toInt_zero32] at h0
  rw [IntOp.cmpi_slt, toInt_50000] at h1
  exact ⟨h0, h1⟩

/-- The padding word 0 is row 0. -/
theorem isNode_zero : IsNode 0#32 := by
  unfold IsNode; rw [toInt_zero32]; omega

/-- Clamping a row number into [0, 49999] leaves it. -/
theorem clip_node {w : BitVec 32} (h : IsNode w) : IntOp.minsi 49999#32 (IntOp.maxsi 0#32 w) = w := by
  obtain ⟨h0, h1⟩ := h
  have hm : IntOp.maxsi 0#32 w = w := by
    unfold IntOp.maxsi
    rw [if_neg]
    rw [BitVec.slt_iff_toInt_lt, toInt_zero32]; omega
  rw [hm]
  unfold IntOp.minsi
  rw [if_neg]
  rw [BitVec.slt_iff_toInt_lt, toInt_49999]; omega

/-- A row number is not negative, so the negative-index wrap is not taken. -/
theorem wrap_node {w : BitVec 32} (h : IsNode w) :
    Scalar.select (IntOp.cmpi .slt w 0#32) (IntOp.addi w 50000#32) w = w := by
  unfold Scalar.select
  rw [if_neg]
  show ¬IntOp.cmpi .slt w 0#32 = 1#1
  rw [IntOp.cmpi_slt, toInt_zero32]; exact not_lt.mpr h.1

/-- A row number passes the inside-the-table test. -/
theorem inside_node {w : BitVec 32} (h : IsNode w) :
    IntOp.andi (IntOp.cmpi .sge w 0#32) (IntOp.cmpi .sle w 49999#32) = 1#1 := by
  rw [IntOp.andi_eq_one, IntOp.cmpi_sge, IntOp.cmpi_sle, toInt_zero32, toInt_49999]
  exact ⟨h.1, by have := h.2; omega⟩

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-- A reduction by `and` from the constant 1 of an array of ones is 1 everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x _ fun n _ => hx n

end Cert.EdgeScore
-- ==== Proof.PreRange.lean ====
/-
  The precondition read back. Beside the finiteness of the table it says, through four `all` reductions, that every
  source word and every destination word, read signed, lies in [0, 50000): each endpoint names a row of the table.
-/
import proofs.«414196_j54692113547268_3_alg».proof.Defs
import proofs.«414196_j54692113547268_3_alg».proof.Proof.Gen.Pre_finite_inputs
import proofs.«414196_j54692113547268_3_alg».proof.Proof.Words
import Idealize.ShloMosaic.Lib.ReduceAll
import Idealize.ShloMosaic.Lib.ValueIdx

noncomputable section

namespace Cert.EdgeScore

open Idealize.ShloMosaic Idealize.ShloMosaic.ValueIdx

instance : Subsingleton Cert.Pre_finite_inputs.S_.Idx := ⟨fun a b => funext fun d => d.elim0⟩

/-- If the printed predicate is 1 on a table and two endpoint vectors, every endpoint word is a row number. -/
theorem nodes_of_pre {F : FTy → Type} [FloatOps F] (h : FVec F Cert.Pre_finite_inputs.S50000x64 .f32)
    (src dst : IVec Cert.Pre_finite_inputs.S800000 32)
    (hp : Cert.Pre_finite_inputs.fn (F := F) h src dst = fun _ => 1#1) (e : Cert.Pre_finite_inputs.S800000.Idx) :
    IsNode (src e) ∧ IsNode (dst e) := by
  have e0 := congrFun hp ix0
  dsimp only [Cert.Pre_finite_inputs.fn, Cert.Pre_finite_inputs.fn_part1] at e0
  simp only [andi, IntOp.andi_eq_one] at e0
  obtain ⟨⟨⟨⟨-, hs0⟩, hs1⟩, hd0⟩, hd1⟩ := e0
  have a0 := Host.reduce_andi_all _ _ _ _ _ hs0 e
  have a1 := Host.reduce_andi_all _ _ _ _ _ hs1 e
  have b0 := Host.reduce_andi_all _ _ _ _ _ hd0 e
  have b1 := Host.reduce_andi_all _ _ _ _ _ hd1 e
  exact ⟨isNode_of_cmp a0 a1, isNode_of_cmp b0 b1⟩

end Cert.EdgeScore

end
-- ==== Proof.LibRowGather.lean ====
/-
  A row gather read at an index. `table[idx]` over a rank-2 table [N, D] at a vector of n row numbers prints as a
  `stablehlo.gather` whose start indices are the [n, 1] column of row numbers, whose operand axis 0 is collapsed and
  start-indexed, whose operand axis 1 is the one offset axis, and whose slices are whole rows [1, D]. Result element (p, q)
  is the table at (row, q), the row being position p's start index read as a signed integer and clamped into [0, N − 1].
-/
import Idealize.ShloMosaic.PureOps.ShapeOps
import Idealize.ShloMosaic.Lib.ValueIdx

namespace Idealize.ShloMosaic.RowGather

open Idealize.ShloMosaic Idealize.ShloMosaic.ValueIdx

/-- A rank-2 index read on an axis whose number is 0 is its first coordinate. -/
theorem ix2_val_zero {n0 n1 : Nat} (a : Fin n0) (b : Fin n1) (i : Fin 2) (hi : i.val = 0) : (ix2 a b i).val = a.val := by
  match i, hi with
  | ⟨0, _⟩, _ => rfl
/-- … and on an axis whose number is 1, its second. -/
theorem ix2_val_one {n0 n1 : Nat} (a : Fin n0) (b : Fin n1) (i : Fin 2) (hi : i.val = 1) : (ix2 a b i).val = b.val := by
  match i, hi with
  | ⟨1, _⟩, _ => rfl

/-- A start index read as a signed integer and clamped into a table of `N` rows: the row a gather reads. -/
def clampRow (N : Nat) (hN : 0 < N) {w : Nat} (i : BitVec w) : Fin N := ⟨min i.toInt.toNat (N - 1), by omega⟩

/-- THE ROW GATHER AT (p, q): the table at (the clamped start row of position p, q). The five hypotheses are the printed
    dimension numbers, each by `rfl` at a program's record. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (q : Fin D) (hN : 0 < N) :
    Host.gather d x idx (ix2 p q)
      = x (ix2 (clampRow N hN (idx (ix2 p (0 : Fin 1)))) q) := by
  unfold Host.gather clampRow
  congr 1
  funext a
  apply Fin.ext
  have hb : ∀ a : Fin 2, a ∉ d.operandBatchingDims := fun a => by rw [hob]; exact List.not_mem_nil
  -- the result's batch axes are all axis 0, its offset axes all axis 1
  have hbatch : ∀ a ∈ d.batchDims, a.val = 0 := by
    intro a ha
    have hna : a ∉ d.offsetDims := by
      have := (List.mem_filter.mp ha).2
      simpa using this
    rw [hoff] at hna
    have h2 : a.val < 2 := a.isLt
    by_contra hne
    exact hna (List.mem_singleton.mpr (Fin.ext (by show a.val = 1; omega)))
  have hoffs : ∀ a ∈ d.offsetDims, a.val = 1 := by
    intro a ha; rw [hoff] at ha; rw [List.mem_singleton.mp ha]; rfl
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min _ (N - 1)
    rw [d.batchCoord_eq_zero _ _ (hb 0), d.offCoord_eq_zero _ _ hk]
    simp only [Nat.add_zero]
    unfold GatherDims.start
    rw [dif_pos hm]
    have hsi : d.siIdx (ix2 p q) ⟨d.startIndexMap.idxOf (0 : Fin 2), List.idxOf_lt_length_iff.2 hm⟩ = ix2 p (0 : Fin 1) := by
      funext b
      apply Fin.ext
      match b with
      | ⟨0, _⟩ =>
        unfold GatherDims.siIdx
        rw [dif_neg (by rw [hivd]; exact Nat.zero_ne_one)]
        unfold GatherDims.siCoord
        simp only [Fin.val_cast]
        exact ix2_val_zero p q _ (hbatch _ (List.getElem_mem _))
      | ⟨1, _⟩ =>
        unfold GatherDims.siIdx
        rw [dif_pos (by rw [hivd])]
        show List.idxOf (0 : Fin 2) d.startIndexMap = 0
        rw [hsim]; simp
    rw [hsi]
    show min (idx (ix2 p 0)).toInt.toNat (N - d.sliceSizes 0) = _
    rw [hsl]
  | ⟨1, _⟩ =>
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [d.batchCoord_eq_zero _ _ (hb 1)]
    simp only [Nat.add_zero]
    unfold GatherDims.start
    rw [dif_neg hm, Nat.zero_add]
    unfold GatherDims.offCoord
    rw [dif_pos hk]
    exact ix2_val_one p q _ (hoffs _ (List.getElem_mem _))

end Idealize.ShloMosaic.RowGather
-- ==== Proof.Score.lean ====
/-
  The score of an edge: the logistic function of the inner product of the two rows of the embedding table that the edge's
  endpoints name, over the extended reals. Both programs compute it: the reference as 1 / (1 + exp(−s)) spelled out in
  host operations on the sum s it starts from the constant 0, the kernel as one logistic of its lane sum.
-/
import Idealize.ShloMosaic.PureOps.Ideal
import Idealize.ShloMosaic.PureOps.Ideal.Laws
import Idealize.ShloMosaic.Lib.ValueIdx
import proofs.«414196_j54692113547268_3_alg».proof.Proof.Words
import proofs.«414196_j54692113547268_3_alg».proof.Proof.LibRowGather

noncomputable section

namespace Cert.EdgeScore

open Idealize.ShloMosaic Idealize.ShloMosaic.ValueIdx

abbrev Tbl : Shape := ⟨2, ![50000, 64]⟩
abbrev Edges : Shape := ⟨1, ![800000]⟩

/-- The row a word names: its signed value clamped into the table, as a gather clamps its start index. -/
abbrev rowOf (w : BitVec 32) : Fin 50000 := RowGather.clampRow 50000 (by decide) w

/-- The inner product of rows `a` and `b` of the table. -/
def rowDot (h : FVec Ideal Tbl .f32) (a b : Fin 50000) : EReal := ∑ k : Fin 64, h (ix2 a k) * h (ix2 b k)

/-- The score of edge `e`: the logistic of the inner product of the rows its endpoints name. -/
def score (h : FVec Ideal Tbl .f32) (src dst : IVec Edges 32) : FVec Ideal Edges .f32 :=
  fun e => Ideal.logistic (rowDot h (rowOf (src e)) (rowOf (dst e)))

/-- The f32 word of 1.0 is the real 1. -/
theorem ofBits_one_f32 : Ideal.ofBits .f32 0x3F800000#32 = 1 := by
  simp [Ideal.ofBits, Ideal.ieee, -EReal.coe_mul]
  norm_num

/-- The reference's spelling of the logistic, 1 / (1 + exp(−(0 + s))) with the constants as f32 words, is the logistic of s. -/
theorem host_logistic (s : EReal) :
    FloatOps.hostDivf (F := Ideal) (φ := .f32) (FloatOps.ofBits .f32 0x3F800000#32)
      (FloatOps.addf (FloatOps.ofBits .f32 0x3F800000#32)
        (FloatOps.hostUnary .exp (FloatOps.hostNegf (FloatOps.ofBits (F := Ideal) .f32 0x00000000#32 + s)))) = Ideal.logistic s := by
  simp only [Ideal.ofBits_def, ofBits_one_f32, Ideal.ofBits_zero_f32, zero_add]
  rfl

end Cert.EdgeScore

end
-- ==== Proof.RefValue.lean ====
/-
  The reference computes the score. Its two gathers read, at (p, k), the table at (the row its start word names, k): the
  start word is the endpoint word with 50000 added when negative, and an endpoint word that is a row number is not
  negative, so it is the endpoint word itself. The rest of the reference is the product of the two gathered arrays summed
  over the 64 columns from the constant 0, then 1 / (1 + exp(−·)): the logistic of the rows' inner product.
-/
import proofs.«414196_j54692113547268_3_alg».proof.Defs
import proofs.«414196_j54692113547268_3_alg».proof.Proof.Gen.ReferenceIdeal.Run
import proofs.«414196_j54692113547268_3_alg».proof.Proof.Gen.ReferenceIdeal.Read
import proofs.«414196_j54692113547268_3_alg».proof.Proof.Score

noncomputable section

namespace Cert.EdgeScore.Ref

open Idealize.ShloMosaic Idealize.ShloMosaic.ValueIdx Idealize.ShloMosaic.RowGather
open Cert.EdgeScore Cert.ReferenceIdeal Cert.ReferenceIdeal.Gen Cert.ReferenceIdeal.Read

/-- The gather by the source words at (p, k): row `src p` of the table at column k. -/
theorem gathered_src (h : FVec Ideal S50000x64 .f32) (src : IVec S800000 32) (p : Fin 800000) (k : Fin 64)
    (hs : IsNode (src (ix1 p))) :
    val_main_v6 (F := Ideal) h src (ix2 p k) = h (ix2 (rowOf (src (ix1 p))) k) := by
  unfold val_main_v6
  rw [gather_rows_apply _ rfl rfl rfl rfl rfl h _ p k (by decide), val_main_v5_apply]
  have hi : idx_main_v5 (ix2 p (0 : Fin 1)) = ix1 p := funext fun a => match a with | ⟨0, _⟩ => rfl
  rw [hi, val_main_v4_apply, val_main_v1_apply, val_main_v3_apply, val_main_v0_apply, val_main_v2_apply, val_main_c_apply,
    val_main_c_0_apply, wrap_node hs]

/-- The gather by the destination words at (p, k): row `dst p` of the table at column k. -/
theorem gathered_dst (h : FVec Ideal S50000x64 .f32) (dst : IVec S800000 32) (p : Fin 800000) (k : Fin 64)
    (hd : IsNode (dst (ix1 p))) :
    val_main_v13 (F := Ideal) h dst (ix2 p k) = h (ix2 (rowOf (dst (ix1 p))) k) := by
  unfold val_main_v13
  rw [gather_rows_apply _ rfl rfl rfl rfl rfl h _ p k (by decide), val_main_v12_apply]
  have hi : idx_main_v12 (ix2 p (0 : Fin 1)) = ix1 p := funext fun a => match a with | ⟨0, _⟩ => rfl
  rw [hi, val_main_v11_apply, val_main_v8_apply, val_main_v10_apply, val_main_v7_apply, val_main_v9_apply, val_main_c_1_apply,
    val_main_c_2_apply, wrap_node hd]

/-- THE REFERENCE'S RESULT IS THE SCORE, when every endpoint word is a row number. -/
theorem result_eq_score (h : FVec Ideal S50000x64 .f32) (src dst : IVec S800000 32)
    (hs : ∀ e, IsNode (src e)) (hd : ∀ e, IsNode (dst e)) :
    val_main_v21 (F := Ideal) h src dst = score h src dst := by
  funext e
  obtain ⟨p, rfl⟩ : ∃ p : Fin 800000, e = ix1 p := ⟨e 0, eq_ix1 e⟩
  rw [val_main_v21_apply, val_main_v20_apply, val_main_cst_4_apply, val_main_v19_apply, val_main_v18_apply, val_main_cst_3_apply,
    val_main_v17_apply, val_main_v16_apply, val_main_v15_apply, val_main_cst_apply, host_logistic]
  unfold score rowDot
  refine congrArg Ideal.logistic (Finset.sum_congr rfl fun k _ => ?_)
  have hi : idx_main_v15 (ix1 p) k = ix2 p k := funext fun a => match a with | ⟨0, _⟩ => rfl | ⟨1, _⟩ => rfl
  rw [hi, val_main_v14_apply, gathered_src h src p k (hs _), gathered_dst h dst p k (hd _)]
  rfl

end Cert.EdgeScore.Ref

end
-- ==== Proof.KernelBlocks.lean ====
/-
  The kernel's region, read as one function of the two gathered arrays. The grid has 98 points; at point t the two input
  windows hold rows 8192·t … 8192·t + 8191 of the gathered arrays [802816, 64] and the output window holds entries
  8192·t … 8192·t + 8191 of the result [802816]. The body multiplies the two blocks entry by entry, sums each row over its
  64 columns and applies the logistic function, so the entry it writes for row r of the block is the logistic of the inner
  product of row 8192·t + r of the two arrays. The 98 output blocks tile the result, so after the region entry j of the
  result is that function of row j; the host's slice afterwards keeps the first 800000 entries.
-/
import proofs.«414196_j54692113547268_3_alg».proof.Defs
import proofs.«414196_j54692113547268_3_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.EdgeScore.Kernel

open Cert.KernelIdeal Cert.KernelIdeal.Gen

variable (m : (ℓ : Loc nD τ sig) → Buf (Elt Ideal) ℓ) (ρ : Dev nD → PrngReg)
/- The two arrays the region reads, as the region finds them. -/
variable (A0 A1 : FVec Ideal S802816x64 .f32)

/-- Row by row, the logistic of the inner product of the two arrays' rows. -/
def rowScores (a b : FVec Ideal S802816x64 .f32) : FVec Ideal S802816 .f32 :=
  fun j => Ideal.logistic (∑ k : Fin 64, a (ix2 (⟨(j 0).val, (j 0).isLt⟩ : Fin 802816) k) * b (ix2 (⟨(j 0).val, (j 0).isLt⟩ : Fin 802816) k))

theorem hz1 : (![0] : Fin 1 → Nat) = fun _ => 0 := funext fun a => by fin_cases a <;> rfl
theorem hz2 : (![0, 0] : Fin 2 → Nat) = fun _ => 0 := funext fun a => by fin_cases a <;> rfl

/-- The body's stored value at row r of a block: the logistic of the inner product of row r of the two loaded blocks. -/
theorem pay_apply (x0 x1 : Vec Ideal S8192x64 .f32) (r : Fin 8192) :
    k0_pay1 x0 x1 (ix1 r) = Ideal.logistic (∑ k : Fin 64, x0 (ix2 r k) * x1 (ix2 r k)) := by
  unfold k0_pay1
  refine congrArg Ideal.logistic ?_
  refine (Ideal.multiReduction_add_single _ _ reduces_S8192x64_S8192 (.inl rfl) rfl (ix1 r)).trans ?_
  refine Finset.sum_congr rfl fun k _ => ?_
  have hl : reduces_S8192x64_S8192.lift (ix1 r) k = ix2 r k :=
    funext fun a => Fin.ext (by match a with | ⟨0, _⟩ => rfl | ⟨1, _⟩ => rfl)
  rw [hl, shapeCast_self, shapeCast_self]
  rfl

/-- The same at any index of the block, by its one coordinate. -/
theorem pay_apply' (x0 x1 : Vec Ideal S8192x64 .f32) (y : S8192.Idx) :
    k0_pay1 x0 x1 y = Ideal.logistic (∑ k : Fin 64, x0 (ix2 (⟨(y 0).val, (y 0).isLt⟩ : Fin 8192) k) * x1 (ix2 (⟨(y 0).val, (y 0).isLt⟩ : Fin 8192) k)) := by
  obtain ⟨r, rfl⟩ : ∃ r : Fin 8192, y = ix1 r := ⟨y 0, eq_ix1 y⟩
  exact pay_apply x0 x1 r

/-- The printed index maps over the grid: at point t every window is at block t (column block 0 for the two inputs). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 ∧ win0_2.index t (0 : Fin 1) = t.val :=
  (by decide +kernel : ∀ t : Fin grid0.N, _)

/-- Block t of input window 0, read off ANY contents of its array: rows 8192·t … of them. -/
theorem read_blk0 (B : S802816x64.Idx → EReal) (t : Fin cfg0.N) (x : S8192x64.Idx) (k : S802816x64.Idx)
    (hk0 : (k 0).val = 8192 * t.val + (x 0).val) (hk1 : (k 1).val = (x 1).val) :
    (((cfg0.win 0).blk t).view.read (Elt Ideal) B : Vec Ideal S8192x64 .f32) x = B k := by
  obtain ⟨e0, e1, -⟩ := idx_facts t
  rw [View.read_apply]
  refine congrArg B (funext fun a => Fin.ext ?_)
  match a with
  | ⟨0, _⟩ => show win0_0.index t 0 * 8192 + 1 * (x 0).val = (k 0).val; rw [e0, hk0]; omega
  | ⟨1, _⟩ => show win0_0.index t 1 * 64 + 1 * (x 1).val = (k 1).val; rw [e1, hk1]; omega

/-- Block t of input window 1 likewise. -/
theorem read_blk1 (B : S802816x64.Idx → EReal) (t : Fin cfg0.N) (x : S8192x64.Idx) (k : S802816x64.Idx)
    (hk0 : (k 0).val = 8192 * t.val + (x 0).val) (hk1 : (k 1).val = (x 1).val) :
    (((cfg0.win 1).blk t).view.read (Elt Ideal) B : Vec Ideal S8192x64 .f32) x = B k := by
  obtain ⟨-, -, e0, e1, -⟩ := idx_facts t
  rw [View.read_apply]
  refine congrArg B (funext fun a => Fin.ext ?_)
  match a with
  | ⟨0, _⟩ => show win0_1.index t 0 * 8192 + 1 * (x 0).val = (k 0).val; rw [e0, hk0]; omega
  | ⟨1, _⟩ => show win0_1.index t 1 * 64 + 1 * (x 1).val = (k 1).val; rw [e1, hk1]; omega

/-- Input window 0's block at point t is rows 8192·t … of the first array. -/
theorem iblk0_apply (c : Dev nD) (hA0 : @Eq (S802816x64.Idx → EReal) (V m c (Pipeline.arrRef spec0 0)) A0)
    (t : Fin cfg0.N) (x : S8192x64.Idx) (k : S802816x64.Idx)
    (hk0 : (k 0).val = 8192 * t.val + (x 0).val) (hk1 : (k 1).val = (x 1).val) :
    (iblk m c 0 t : Vec Ideal S8192x64 .f32) x = A0 k := by
  delta iblk
  generalize V m c (Pipeline.arrRef spec0 0) = B at hA0 ⊢
  subst hA0
  exact read_blk0 B t x k hk0 hk1

/-- Input window 1's block at point t is rows 8192·t … of the second array. -/
theorem iblk1_apply (c : Dev nD) (hA1 : @Eq (S802816x64.Idx → EReal) (V m c (Pipeline.arrRef spec0 1)) A1)
    (t : Fin cfg0.N) (x : S8192x64.Idx) (k : S802816x64.Idx)
    (hk0 : (k 0).val = 8192 * t.val + (x 0).val) (hk1 : (k 1).val = (x 1).val) :
    (iblk m c 1 t : Vec Ideal S8192x64 .f32) x = A1 k := by
  delta iblk
  generalize V m c (Pipeline.arrRef spec0 1) = B at hA1 ⊢
  subst hA1
  exact read_blk1 B t x k hk0 hk1

/-- WHAT POINT t WRITES BACK is block t of the row scores of the two arrays. -/
theorem flushed_eq (c : Dev nD) (hA0 : @Eq (S802816x64.Idx → EReal) (V m c (Pipeline.arrRef spec0 0)) A0)
    (hA1 : @Eq (S802816x64.Idx → EReal) (V m c (Pipeline.arrRef spec0 1)) A1) (t : Fin cfg0.N) :
    (dats m 0 c).flushed 2 t = ((cfg0.win 2).blk t).view.read (Elt Ideal) (rowScores A0 A1) := by
  show (cfg0.win 2).cut (grid0.coords t) ((dats m 0 c).after 2 t) = _
  rw [after0_2]
  unfold out0_2
  rw [View.canon_unit_zero hz1]
  simp only [View.ld_unit_zero (S := S8192x64) hz2]
  obtain ⟨-, -, -, -, e4⟩ := idx_facts t
  funext j
  rw [View.read_apply]
  refine (pay_apply' (iblk m c 0 t) (iblk m c 1 t) _).trans ?_
  unfold rowScores
  refine congrArg Ideal.logistic (Finset.sum_congr rfl fun k _ => ?_)
  refine congrArg₂ (· * ·) (iblk0_apply m A0 c hA0 t _ _ ?_ ?_) (iblk1_apply m A1 c hA1 t _ _ ?_ ?_)
  · show win0_2.index t 0 * 8192 + 1 * (j 0).val = 8192 * t.val + (j 0).val; rw [e4]; omega
  · rfl
  · show win0_2.index t 0 * 8192 + 1 * (j 0).val = 8192 * t.val + (j 0).val; rw [e4]; omega
  · rfl

/-- An entry of the result is in point t's block iff it is one of entries 8192·t … 8192·t + 8191. -/
theorem mem_blk (t : Fin cfg0.N) (i : S802816.Idx) :
    i ∈ ((cfg0.win 2).blk t).view.set ↔ ∀ a : Fin 1, win0_2.index t a * S8192.size a ≤ (i a).val ∧ (i a).val < win0_2.index t a * S8192.size a + S8192.size a := by
  show i ∈ ((View.whole main_v6).slice (win0_2.rect t)).set ↔ _
  rw [View.set_slice_whole, Rect.mem_set_unit]
  exact Iff.rfl

/-- THE RESULT ARRAY after the region: the row scores of the two arrays (entry j is in the block of point j / 8192). -/
theorem final (c : Dev nD) (hA0 : @Eq (S802816x64.Idx → EReal) (V m c (Pipeline.arrRef spec0 0)) A0)
    (hA1 : @Eq (S802816x64.Idx → EReal) (V m c (Pipeline.arrRef spec0 1)) A1) :
    (dats m 0 c).arrAt 2 cfg0.N = rowScores A0 A1 :=
  (dats m 0 c).arrAt_eq_of_cover 2 _ (fun t _ => flushed_eq m A0 A1 c hA0 hA1 t) fun i => by
    have hi : (i 0).val < 802816 := (i 0).isLt
    have hN : grid0.N = 98 := N_0
    have ht : (i 0).val / 8192 < grid0.N := by omega
    obtain ⟨-, -, -, -, e4⟩ := idx_facts ⟨(i 0).val / 8192, ht⟩
    refine ⟨⟨(i 0).val / 8192, ht⟩, flush0_2 _, ?_⟩
    rw [mem_blk]
    intro a
    match a with
    | ⟨0, _⟩ =>
      show win0_2.index ⟨(i 0).val / 8192, ht⟩ 0 * 8192 ≤ (i 0).val ∧ (i 0).val < win0_2.index ⟨(i 0).val / 8192, ht⟩ 0 * 8192 + 8192
      rw [e4]
      show (i 0).val / 8192 * 8192 ≤ (i 0).val ∧ (i 0).val < (i 0).val / 8192 * 8192 + 8192
      omega

/-- The kernel's result: the first 800000 row scores. -/
abbrev result : FVec Ideal S800000 .f32 :=
  extractStridedSlice S800000 ![0] (rowScores A0 A1) slices_S802816_S800000_0

/-- The host's slice after the region leaves `result` in the program's result buffer. -/
theorem tail_eq (c : Dev nD) (hA0 : @Eq (S802816x64.Idx → EReal) (V m c (Pipeline.arrRef spec0 0)) A0)
    (hA1 : @Eq (S802816x64.Idx → EReal) (V m c (Pipeline.arrRef spec0 1)) A1) :
    Pipeline.afterTail₀ cfgs (dats m) 0 (V0 m) [hostOps1] c main_v7 = result A0 A1 := by
  unfold Pipeline.afterTail₀
  show StableHlo.after hostOps1 _ (Proc.devRef .tc main_v7) = _
  after_results
  refine congrArg (fun x : S802816.Idx → EReal => extractStridedSlice S800000 ![0] x slices_S802816_S800000_0) ?_
  exact (Pipeline.withArrays_arr spec0 launch0.win.arr_inj c _ _ 2).trans (final m A0 A1 c hA0 hA1)

end Cert.EdgeScore.Kernel

end
-- ==== Proof.KernelHost.lean ====
/-
  The two arrays the kernel's region reads, as the host operations before it leave them. From an endpoint vector x the
  host clamps every word into [0, 49999], pads the vector with 2816 zero words to 802816 entries, and gathers: it adds
  50000 to negative words, lays the vector out as a column of start rows, gathers whole rows of the table, and keeps a
  gathered row only where its start row passed the test 0 ≤ · ≤ 49999 (a NaN row elsewhere). When every word of x is a
  row number the clamp and the wrap change nothing, the padding words are row 0, the test is passed everywhere, and the
  gather's own clamp leaves the row: entry (r, k) of the array, for r < 800000, is the table at (row x r, k).
-/
import proofs.«414196_j54692113547268_3_alg».proof.Defs
import proofs.«414196_j54692113547268_3_alg».proof.Proof.Gen.KernelIdeal.Frame
import proofs.«414196_j54692113547268_3_alg».proof.Proof.Score
import Idealize.ShloMosaic.Lib.Pipeline.Value
import Idealize.ShloMosaic.Lib.KernelVsHost
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx Idealize.ShloMosaic.RowGather

namespace Cert.EdgeScore.Kernel

open Cert.EdgeScore Cert.KernelIdeal Cert.KernelIdeal.Gen

/-! ## The host's operations as functions of an endpoint vector -/

/-- The words clamped into [0, 49999]. -/
abbrev clipped (x : IVec S800000 32) : IVec S800000 32 :=
  minsi (broadcastInDim S800000 ![] bcast_S_S800000 (constantI S_ 32 49999#32))
    (maxsi (broadcastInDim S800000 ![] bcast_S_S800000 (constantI S_ 32 0#32)) x)

/-- … then padded with zero words to 802816 entries. -/
abbrev padded (x : IVec S800000 32) : IVec S802816 32 :=
  pad S802816 ![0] ![2816] ![0] (clipped x) (constantI S_ 32 0#32) pads_S800000_S802816_028160 h_S_

/-- A negative start word gets 50000 added. -/
abbrev wrapped (p : IVec S802816 32) : IVec S802816 32 :=
  select (cmpi .slt p (broadcastInDim S802816 ![] bcast_S_S802816 (constantI S_ 32 0#32)))
    (addi p (broadcastInDim S802816 ![] bcast_S_S802816 (constantI S_ 32 50000#32))) p

/-- The start rows as a column. -/
abbrev startCol (p : IVec S802816 32) : IVec S802816x1 32 :=
  broadcastInDim S802816x1 ![0] bcast_S802816_S802816x1_0 (wrapped p)

/-- Which start rows are inside the table. -/
abbrev insideTbl (v : IVec S802816x1 32) : IVec S802816 1 :=
  Host.reduce IntOp.andi
    (andi (cmpi .sge v (broadcastInDim S802816x1 ![] bcast_S_S802816x1 (constantI S_ 32 0#32)))
      (cmpi .sle v (broadcastInDim S802816x1 ![0, 1] bcast_S1x1_S802816x1_0_1
        (broadcastInDim S1x1 ![1] bcast_S1_S1x1_1 (constantI S1 32 49999#32)))))
    (constantI S_ 1 1#1) reducesTo_S802816x1_S802816_d1 h_S_

/-- The gathered rows, a NaN row where the start row is outside the table. -/
abbrev taken {F : FTy → Type} [FloatOps F] (h : FVec F S50000x64 .f32) (p : IVec S802816 32) : FVec F S802816x64 .f32 :=
  select (broadcastInDim S802816x64 ![0] bcast_S802816_S802816x64_0 (insideTbl (startCol p)))
    (Host.gather gather_S50000x64_S802816x1_S802816x64_1_0_n_n_0_1_164 h (startCol p))
    (broadcastInDim S802816x64 ![] bcast_S_S802816x64 (constant S_ .f32 0x7FC00000#32))

/-! ## Read at an index -/

/-- The padded vector's words are all row numbers when the vector's are. -/
theorem padded_node (x : IVec S800000 32) (hx : ∀ e, IsNode (x e)) (j : S802816.Idx) : IsNode (padded x j) := by
  by_cases hj : (j 0).val < 800000
  · rw [show padded x j = clipped x (ix1 ⟨(j 0).val, hj⟩) from
      pad_apply_of_inside _ _ _ _ _ _ _ j (ix1 ⟨(j 0).val, hj⟩) (fun a => match a with | ⟨0, _⟩ => by show (j 0).val = 0 + (j 0).val * (0 + 1); omega)]
    show IsNode (IntOp.minsi 49999#32 (IntOp.maxsi 0#32 (x _)))
    rw [clip_node (hx _)]; exact hx _
  · rw [show padded x j = (constantI S_ 32 0#32) (Shape.Idx.first h_S_) from
      pad_apply_of_not_inside _ _ _ _ _ _ _ j 0 (by
        show ¬(0 ≤ (j 0).val ∧ ((j 0).val - 0) % (0 + 1) = 0 ∧ ((j 0).val - 0) / (0 + 1) < 800000)
        intro h; apply hj; have := h.2.2; simpa using this)]
    exact isNode_zero

/-- Before the padding the padded vector is the vector itself. -/
theorem padded_apply (x : IVec S800000 32) (hx : ∀ e, IsNode (x e)) (r : Fin 802816) (hr : r.val < 800000) :
    padded x (ix1 r) = x (ix1 ⟨r.val, hr⟩) := by
  rw [show padded x (ix1 r) = clipped x (ix1 ⟨r.val, hr⟩) from
    pad_apply_of_inside _ _ _ _ _ _ _ (ix1 r) (ix1 ⟨r.val, hr⟩) (fun a => match a with | ⟨0, _⟩ => by show r.val = 0 + r.val * (0 + 1); omega)]
  exact clip_node (hx _)

/-- The column of start rows at (r, 0) is word r, when the words are row numbers. -/
theorem startCol_apply (p : IVec S802816 32) (hp : ∀ j, IsNode (p j)) (i : S802816x1.Idx) :
    startCol p i = p (ix1 (⟨(i 0).val, (i 0).isLt⟩ : Fin 802816)) := by
  rw [show startCol p i = wrapped p (ix1 (⟨(i 0).val, (i 0).isLt⟩ : Fin 802816)) from
    broadcastInDim_apply _ bcast_S802816_S802816x1_0 _ i _ (fun a => match a with
      | ⟨0, _⟩ => by show (i 0).val = if (802816 : Nat) = 1 then 0 else (i 0).val; rw [if_neg (by decide)])]
  exact wrap_node (hp _)

/-- Every start row passes the inside-the-table test. -/
theorem insideTbl_one (p : IVec S802816 32) (hp : ∀ j, IsNode (p j)) (j : S802816.Idx) : insideTbl (startCol p) j = 1#1 := by
  refine reduce_andi_ones _ _ _ _ rfl (fun i => ?_) j
  show IntOp.andi (IntOp.cmpi .sge (startCol p i) 0#32) (IntOp.cmpi .sle (startCol p i) 49999#32) = 1#1
  rw [startCol_apply p hp i]
  exact inside_node (hp _)

/-- THE GATHERED ARRAY AT (r, k): the table at (the row word r names, k). -/
theorem taken_apply (h : FVec Ideal S50000x64 .f32) (p : IVec S802816 32) (hp : ∀ j, IsNode (p j)) (r : Fin 802816) (k : Fin 64) :
    taken (F := Ideal) h p (ix2 r k) = h (ix2 (rowOf (p (ix1 r))) k) := by
  have hmask : broadcastInDim S802816x64 ![0] bcast_S802816_S802816x64_0 (insideTbl (startCol p)) (ix2 r k) = 1#1 := by
    rw [broadcastInDim_apply _ bcast_S802816_S802816x64_0 _ (ix2 r k) (ix1 r) (fun a => match a with
      | ⟨0, _⟩ => by show r.val = if (802816 : Nat) = 1 then 0 else r.val; rw [if_neg (by decide)])]
    exact insideTbl_one p hp _
  show Scalar.select (broadcastInDim S802816x64 ![0] bcast_S802816_S802816x64_0 (insideTbl (startCol p)) (ix2 r k))
    (Host.gather gather_S50000x64_S802816x1_S802816x64_1_0_n_n_0_1_164 h (startCol p) (ix2 r k)) _ = _
  rw [hmask, select_one, gather_rows_apply _ rfl rfl rfl rfl rfl h (startCol p) r k (by decide), startCol_apply p hp]

/-! ## The region's two input arrays

The host operations before the region are a list; a buffer's contents after a list of operations is a fold over it, so the
contents after two stretches are the second stretch's fold from the first's. The prefix falls into three stretches:
everything before the two gathers (the clamps and the pads), the first gather, the second gather; a gather's stretch
gathers from whatever contents it finds. -/

/-- Contents after one stretch and then another are the second's from the first's. -/
theorem after_append {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => simp only [List.cons_append, StableHlo.after_cons, ih]

/-- Contents carried to a buffer's own type and back are the contents. -/
theorem ofBuf_toBuf {Val : EltTy → Type} {T : BufTy} (x : StableHlo.TRef sig T) (v : T.Contents Val) : x.ofBuf (x.toBuf v) = v := by
  obtain ⟨r, rfl, h1, h2⟩ := x
  rfl

variable (m : (ℓ : Loc nD τ sig) → Buf (Elt Ideal) ℓ)

/-- Core c's contents after the clamps and the pads, before the two gathers. -/
def beforeTakes (c : Dev nD) : Valuation τ sig (Elt Ideal) :=
  StableHlo.after (List.flatten [hostOps0, hostOps0_1, hostOps0_2, hostOps0_3, hostOps0_4, hostOps0_5, hostOps0_6, hostOps0_7]) (fun b => m (c, b))

/-- The region-entry contents are the two gathers' stretches run from there. -/
theorem V0_split (c : Dev nD) : V0 m c = StableHlo.after hostOps0_9 (StableHlo.after hostOps0_8 (beforeTakes m c)) := by
  unfold beforeTakes
  rw [← after_append, ← after_append]
  show StableHlo.after (List.flatten [hostOps0, hostOps0_1, hostOps0_2, hostOps0_3, hostOps0_4, hostOps0_5, hostOps0_6, hostOps0_7, hostOps0_8, hostOps0_9]) _ = _
  refine congrArg (fun l => StableHlo.after l (fun b => m (c, b))) ?_
  simp only [List.flatten_cons, List.flatten_nil, List.append_nil, List.append_assoc]

/-- Before the gathers the padded source words are in place, -/
theorem before_v2 (c : Dev nD) : @Eq (S802816.Idx → BitVec 32) (beforeTakes m c (Proc.devRef .tc main_v2))
    (padded (m ((c.tc : Thread nD τ).loc main_arg1))) := by
  unfold beforeTakes
  simp only [hostOps0, hostOps0_1, hostOps0_2, hostOps0_3, hostOps0_4, hostOps0_5, hostOps0_6, hostOps0_7,
    List.flatten_cons, List.flatten_nil, List.append_nil, List.cons_append, List.nil_append]
  after_results
  rfl

/-- the padded destination words, -/
theorem before_v3 (c : Dev nD) : @Eq (S802816.Idx → BitVec 32) (beforeTakes m c (Proc.devRef .tc main_v3))
    (padded (m ((c.tc : Thread nD τ).loc main_arg2))) := by
  unfold beforeTakes
  simp only [hostOps0, hostOps0_1, hostOps0_2, hostOps0_3, hostOps0_4, hostOps0_5, hostOps0_6, hostOps0_7,
    List.flatten_cons, List.flatten_nil, List.append_nil, List.cons_append, List.nil_append]
  after_results
  rfl

/-- and the table as launched. -/
theorem before_arg0 (c : Dev nD) : @Eq (S50000x64.Idx → EReal) (beforeTakes m c (Proc.devRef .tc main_arg0))
    (m ((c.tc : Thread nD τ).loc main_arg0)) := by
  unfold beforeTakes
  simp only [hostOps0, hostOps0_1, hostOps0_2, hostOps0_3, hostOps0_4, hostOps0_5, hostOps0_6, hostOps0_7,
    List.flatten_cons, List.flatten_nil, List.append_nil, List.cons_append, List.nil_append]
  after_results

set_option maxHeartbeats 2000000 in
/-- The first gather's stretch, from any contents W, leaves in its result the rows of W's table gathered by W's padded words. -/
theorem take4_result (W : Valuation τ sig (Elt Ideal)) :
    @Eq (S802816x64.Idx → EReal) (StableHlo.after hostOps0_8 W (Proc.devRef .tc main_v4))
      (taken (F := Ideal) (W (Proc.devRef .tc main_arg0)) (W (Proc.devRef .tc main_v2))) := by
  simp only [hostOps0_8]
  after_results_simp
  simp only [ofBuf_toBuf]
  refine ((show ∀ X : FVec Ideal S802816x64 .f32, @Eq (S802816x64.Idx → EReal)
    ((StableHlo.TRef.of main_v4 : StableHlo.TRef sig ⟨S802816x64, .f32⟩).toBuf (Val := Elt Ideal) X) X from fun _ => rfl) _).trans ?_
  rfl

set_option maxHeartbeats 2000000 in
/-- The second gather's stretch likewise, -/
theorem take5_result (W : Valuation τ sig (Elt Ideal)) :
    @Eq (S802816x64.Idx → EReal) (StableHlo.after hostOps0_9 W (Proc.devRef .tc main_v5))
      (taken (F := Ideal) (W (Proc.devRef .tc main_arg0)) (W (Proc.devRef .tc main_v3))) := by
  simp only [hostOps0_9]
  after_results_simp
  simp only [ofBuf_toBuf]
  refine ((show ∀ X : FVec Ideal S802816x64 .f32, @Eq (S802816x64.Idx → EReal)
    ((StableHlo.TRef.of main_v5 : StableHlo.TRef sig ⟨S802816x64, .f32⟩).toBuf (Val := Elt Ideal) X) X from fun _ => rfl) _).trans ?_
  rfl

/-- and it leaves the first gather's result alone. -/
theorem take5_keeps_v4 (W : Valuation τ sig (Elt Ideal)) :
    StableHlo.after hostOps0_9 W (Proc.devRef .tc main_v4) = W (Proc.devRef .tc main_v4) := by
  simp only [hostOps0_9]
  after_results

/-- The first gather's stretch leaves the table and the padded destination words alone. -/
theorem take4_keeps_arg0 (W : Valuation τ sig (Elt Ideal)) :
    StableHlo.after hostOps0_8 W (Proc.devRef .tc main_arg0) = W (Proc.devRef .tc main_arg0) := by
  simp only [hostOps0_8]
  after_results
theorem take4_keeps_v3 (W : Valuation τ sig (Elt Ideal)) :
    StableHlo.after hostOps0_8 W (Proc.devRef .tc main_v3) = W (Proc.devRef .tc main_v3) := by
  simp only [hostOps0_8]
  after_results

/-- The first input array is the rows gathered by the padded source words. -/
theorem V_arr0 (c : Dev nD) : @Eq (S802816x64.Idx → EReal) (V m c (Pipeline.arrRef spec0 0))
    (taken (F := Ideal) (m ((c.tc : Thread nD τ).loc main_arg0)) (padded (m ((c.tc : Thread nD τ).loc main_arg1)))) := by
  show @Eq (S802816x64.Idx → EReal) (V0 m c (Proc.devRef .tc main_v4)) _
  rw [V0_split, take5_keeps_v4, take4_result, before_arg0, before_v2]

/-- The second input array is the rows gathered by the padded destination words. -/
theorem V_arr1 (c : Dev nD) : @Eq (S802816x64.Idx → EReal) (V m c (Pipeline.arrRef spec0 1))
    (taken (F := Ideal) (m ((c.tc : Thread nD τ).loc main_arg0)) (padded (m ((c.tc : Thread nD τ).loc main_arg2)))) := by
  show @Eq (S802816x64.Idx → EReal) (V0 m c (Proc.devRef .tc main_v5)) _
  rw [V0_split, take5_result, take4_keeps_arg0, take4_keeps_v3, before_arg0, before_v3]

/-- Entry (r, k) of the rows gathered by the padded words of x, r < 800000: the table at (row x r, k). -/
theorem taken_padded_apply (h : FVec Ideal S50000x64 .f32) (x : IVec S800000 32) (hx : ∀ e, IsNode (x e))
    (r : Fin 802816) (hr : r.val < 800000) (k : Fin 64) :
    taken (F := Ideal) h (padded x) (ix2 r k) = h (ix2 (rowOf (x (ix1 ⟨r.val, hr⟩))) k) := by
  rw [taken_apply _ _ (padded_node _ hx), padded_apply _ hx r hr]

end Cert.EdgeScore.Kernel

end
-- ==== Proof.Bridge.lean ====
/-
  The kernel computes the score. The region leaves, row by row, the logistic of the inner product of the two gathered
  arrays' rows; the host keeps the first 800000 rows; and row r < 800000 of each gathered array is the table's row named
  by endpoint word r. So entry e of the kernel's result is the logistic of the inner product of the rows edge e's endpoints
  name: the score.
-/
import proofs.«414196_j54692113547268_3_alg».proof.Proof.KernelBlocks
import proofs.«414196_j54692113547268_3_alg».proof.Proof.KernelHost

noncomputable section

open Idealize.ShloMosaic Idealize.ShloMosaic.TcCoe Idealize.SL.Sem Idealize.ShloMosaic.ValueIdx

namespace Cert.EdgeScore.Kernel

open Cert.EdgeScore Cert.KernelIdeal Cert.KernelIdeal.Gen

variable (m : (ℓ : Loc nD τ sig) → Buf (Elt Ideal) ℓ) (ρ : Dev nD → PrngReg)

/-- The rows gathered by the padded source words, and by the padded destination words. -/
abbrev srcRows (c : Dev nD) : FVec Ideal S802816x64 .f32 :=
  taken (F := Ideal) (m ((c.tc : Thread nD τ).loc main_arg0)) (padded (m ((c.tc : Thread nD τ).loc main_arg1)))
abbrev dstRows (c : Dev nD) : FVec Ideal S802816x64 .f32 :=
  taken (F := Ideal) (m ((c.tc : Thread nD τ).loc main_arg0)) (padded (m ((c.tc : Thread nD τ).loc main_arg2)))

/-- THE RUN, READ: every weakly fair execution ends with the result buffer at the first 800000 row scores of the two
    gathered arrays, and the arguments unchanged. -/
theorem run : θ_run defs (onTc (τ := τ) (main (F := Ideal))) ⟨m, fun _ => 0, ρ⟩ fun r => ∀ c : Dev nD,
      r.2.mem ((c.tc : Thread nD τ).loc main_v7) = result (srcRows m c) (dstRows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans
        (tail_eq m (srcRows m c) (dstRows m c) c (V_arr0 m c) (V_arr1 m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

/-- THE KERNEL'S RESULT IS THE SCORE, when every endpoint word is a row number. -/
theorem result_eq_score (c : Dev nD)
    (hs : ∀ e, IsNode (m ((c.tc : Thread nD τ).loc main_arg1) e)) (hd : ∀ e, IsNode (m ((c.tc : Thread nD τ).loc main_arg2) e)) :
    result (srcRows m c) (dstRows m c)
      = score (m ((c.tc : Thread nD τ).loc main_arg0)) (m ((c.tc : Thread nD τ).loc main_arg1)) (m ((c.tc : Thread nD τ).loc main_arg2)) := by
  funext e
  obtain ⟨p, rfl⟩ : ∃ p : Fin 800000, e = ix1 p := ⟨e 0, eq_ix1 e⟩
  have hp : p.val < 802816 := by have := p.isLt; omega
  rw [show result (srcRows m c) (dstRows m c) (ix1 p) = rowScores (srcRows m c) (dstRows m c) (ix1 (⟨p.val, hp⟩ : Fin 802816)) from
    extractStridedSlice_apply _ _ _ (ix1 p) (ix1 (⟨p.val, hp⟩ : Fin 802816)) (fun a => match a with
      | ⟨0, _⟩ => by show p.val = 0 + p.val; omega)]
  unfold rowScores score rowDot
  refine congrArg Ideal.logistic (Finset.sum_congr rfl fun k _ => ?_)
  exact congrArg₂ (· * ·) (taken_padded_apply _ _ hs ⟨p.val, hp⟩ p.isLt k) (taken_padded_apply _ _ hd ⟨p.val, hp⟩ p.isLt k)

end Cert.EdgeScore.Kernel

end
-- ==== Proof.lean ====
/-
  The claim: the kernel scores every edge as its reference does.

  Both programs take a table of 50000 embeddings of 64 coordinates and, for each of 800000 edges, the two words naming the
  edge's endpoints, and return for each edge the logistic function of the inner product of the two endpoints' embeddings.
  The reference indexes the table as numpy does (a negative word counts from the end, then the gather clamps); the kernel
  first clamps every word into [0, 49999], pads the edge list to 98 blocks of 8192, gathers on the host, and computes the
  row sums and the logistic in a pipelined region, block by block. On words outside [0, 50000) the two conventions differ
  (the word −1 is the last row for the reference and row 0 for the kernel), so the claim is stated where every endpoint
  word is a row number: there both programs read row `w` for word `w`, and over the extended reals the kernel's
  logistic of a lane sum and the reference's 1 / (1 + exp(−(0 + sum))) are the same function of the same 64 products.
  The three frames are the generated frame certificates (the reference's is its generated run with the result dropped);
  the ideal pass rewrote nothing, so the kernel is its own idealization.
-/
import proofs.«414196_j54692113547268_3_alg».proof.Defs
import proofs.«414196_j54692113547268_3_alg».proof.Proof.Gen.Kernel
import proofs.«414196_j54692113547268_3_alg».proof.Proof.Gen.Kernel.Skeleton
import proofs.«414196_j54692113547268_3_alg».proof.Proof.Gen.Kernel.Launch
import proofs.«414196_j54692113547268_3_alg».proof.Proof.Gen.Kernel.Points
import proofs.«414196_j54692113547268_3_alg».proof.Proof.Gen.Kernel.Frame
import proofs.«414196_j54692113547268_3_alg».proof.Proof.Gen.KernelIdeal
import proofs.«414196_j54692113547268_3_alg».proof.Proof.Gen.KernelIdeal.Skeleton
import proofs.«414196_j54692113547268_3_alg».proof.Proof.Gen.KernelIdeal.Launch
import proofs.«414196_j54692113547268_3_alg».proof.Proof.Gen.KernelIdeal.Points
import proofs.«414196_j54692113547268_3_alg».proof.Proof.Gen.KernelIdeal.Frame
import proofs.«414196_j54692113547268_3_alg».proof.Proof.Gen.ReferenceIdeal
import proofs.«414196_j54692113547268_3_alg».proof.Proof.Gen.ReferenceIdeal.Run
import proofs.«414196_j54692113547268_3_alg».proof.Proof.Gen.ReferenceIdeal.Read
import proofs.«414196_j54692113547268_3_alg».proof.Proof.Gen.Pre_finite_inputs
import proofs.«414196_j54692113547268_3_alg».proof.Proof.PreRange
import proofs.«414196_j54692113547268_3_alg».proof.Proof.RefValue
import proofs.«414196_j54692113547268_3_alg».proof.Proof.Bridge
import Idealize.ShloMosaic.Adequacy
import Idealize.ShloMosaic.Init

noncomputable section

namespace Cert.Proof

open Idealize.ShloMosaic Idealize.SL.Sem Cert.EdgeScore

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the table and the endpoint words, with every endpoint word a row number, both programs
    end with the score of every edge in their result. -/
theorem algebraic : Cert.algebraic_KernelIdeal_ReferenceIdeal := by
  intro m ρ m' ρ' hpre hagree
  have hnodes := fun (c : Dev Cert.KernelIdeal.nD) e => nodes_of_pre _ _ _ (hpre c) e
  refine ⟨fun c => Kernel.result (Kernel.srcRows m c) (Kernel.dstRows m c), Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2,
    Ref.result_eq_score _ _ _ (fun e => (hnodes c e).1) (fun e => (hnodes c e).2)]
  exact (Kernel.result_eq_score m c (fun e => (hnodes c e).1) (fun e => (hnodes c e).2)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
